-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_scale" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x128 : Shape := ⟨2, ![1024, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S1024x1024 .f32) (main_arg1 : FVec F S1024x128 .f32) (main_arg2 : FVec F S1024x128 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  main_v13
-- ==== Kernel.lean ====
abbrev S1024x1024 : Shape := ⟨2, ![1024, 1024]⟩
abbrev S1024x128 : Shape := ⟨2, ![1024, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S1024x128, .f32⟩
  | .hbm, ⟨3, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1024x128, .f32⟩
  | .local _ .vmem, ⟨5, _⟩ => ⟨S512x128, .f32⟩
  | .local _ .vmem, ⟨6, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  natLt_1_32 : 1 < 32
  reduces_S512x1024_S512 : S512x1024.Reduces [1] S512
  shapeCasts_S512_S512x1 : S512.ShapeCasts S512x1
  broadcasts_S512x1_S512x1024 : S512x1.Broadcasts S512x1024
  broadcasts_S512x1_S512x128 : S512x1.Broadcasts S512x128
  dot_S512x128_S1024x128_S512x1024_1_1_0_0_n_n_wf : DotDims.WF S512x128 S1024x128 S512x1024 [1] [1] [0] [0] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .f32 = 32 ∨ (Rect.block (s := S1024x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S1024x128.size a
  hwx0_1 : ∀ i : grid0.Coords, EltTy.bits .f32 = 32 ∨ (Rect.block (s := S1024x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S1024x128.size a
  hwx0_3 : ∀ i : grid0.Coords, EltTy.bits .f32 = 32 ∨ (Rect.block (s := S1024x128) S512x128.size (cc0_transform_3 i) (hinb0_3 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x128 : Shape := ⟨2, ![1024, 128]⟩
abbrev S_ : Shape := ⟨0, ![]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024 : Shape := ⟨1, ![1024]⟩
abbrev S1024x1 : Shape := ⟨2, ![1024, 1]⟩
abbrev S1024x1024x1 : Shape := ⟨3, ![1024, 1024, 1]⟩

abbrev nBuf : Space → Nat
  | .hbm => 67
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S1024x128, .f32⟩
  | .hbm, ⟨3, _⟩ => ⟨S_, .f32⟩
  | .hbm, ⟨4, _⟩ => ⟨S1024x1024, .f32⟩
  | .hbm, ⟨5, _⟩ => ⟨S1024x1024, .i1⟩
  | .hbm, ⟨6, _⟩ => ⟨S1024x1x128, .f32⟩
  | .hbm, ⟨7, _⟩ => ⟨S1x1024x128, .f32⟩
  | .hbm, ⟨8, _⟩ => ⟨S1024x1024x128, .f32⟩
  | .hbm, ⟨9, _⟩ => ⟨S1024x1024x128, .f32⟩
  | .hbm, ⟨10, _⟩ => ⟨S1024x1024x128, .f32⟩
  | .hbm, ⟨11, _⟩ => ⟨S_, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .i1⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024x1, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .i1⟩
  | .hbm, ⟨42, _⟩ => ⟨S_, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024x1, .f32⟩
  | .hbm, ⟨47, _⟩ => ⟨S1024x1024, .f32⟩
  | .hbm, ⟨48, _⟩ => ⟨S1024x1024, .f32⟩
  | .hbm, ⟨49, _⟩ => ⟨S1024x1024x1, .f32⟩
  | .hbm, ⟨50, _⟩ => ⟨S1x1024x128, .f32⟩
  | .hbm, ⟨51, _⟩ => ⟨S1024x1024x128, .f32⟩
  | .hbm, ⟨52, _⟩ => ⟨S1024x1024x128, .f32⟩
  | .hbm, ⟨53, _⟩ => ⟨S1024x1024x128, .f32⟩
  | .hbm, ⟨54, _⟩ => ⟨S_, .f32⟩
  | .hbm, ⟨55, _⟩ => ⟨S1024x128, .f32⟩
  | .hbm, ⟨56, _⟩ => ⟨S1024x1024, .i32⟩
  | .hbm, ⟨57, _⟩ => ⟨S_, .i32⟩
  | .hbm, ⟨58, _⟩ => ⟨S1024, .i32⟩
  | .hbm, ⟨59, _⟩ => ⟨S_, .i32⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1024x1, .f32⟩
  | .hbm, ⟨65, _⟩ => ⟨S1024x128, .f32⟩
  | .hbm, ⟨66, _⟩ => ⟨S1024x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_call2_v0 : Ref sig .tc := ⟨.hbm, 34, rfl⟩
abbrev main_call2_v1 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_cst_8 : Ref sig .tc := ⟨.hbm, 39, rfl⟩
abbrev main_v21 : Ref sig .tc := ⟨.hbm, 40, rfl⟩
abbrev main_v22 : Ref sig .tc := ⟨.hbm, 41, rfl⟩
abbrev main_cst_9 : Ref sig .tc := ⟨.hbm, 42, rfl⟩
abbrev main_call3_v0 : Ref sig .tc := ⟨.hbm, 43, rfl⟩
abbrev main_call3_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_c : Ref sig .tc := ⟨.hbm, 57, rfl⟩
abbrev main_v34 : Ref sig .tc := ⟨.hbm, 58, rfl⟩
abbrev main_c_11 : Ref sig .tc := ⟨.hbm, 59, rfl⟩
abbrev main_call4_v0 : Ref sig .tc := ⟨.hbm, 60, rfl⟩
abbrev main_call4_v1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  h_S_ : 0 < S_.numel
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024x1024_S1024x1024x1_0_1 : S1024x1024.BroadcastsInDim S1024x1024x1 (![0, 1] : Fin 2 → Fin S1024x1024x1.rank)
  bcast_S1024x1024x1_S1024x1024x128_0_1_2 : S1024x1024x1.BroadcastsInDim S1024x1024x128 (![0, 1, 2] : Fin 3 → Fin S1024x1024x128.rank)
  reducesTo_S1024x1024x128_S1024x128_d1 : S1024x1024x128.ReducesTo [1] S1024x128
  natLt_1_32 : 1 < 32
  bcast_S1024x1_S1024x128_0_1 : S1024x1.BroadcastsInDim S1024x128 (![0, 1] : Fin 2 → Fin S1024x128.rank)

variable [Facts₀]

class Facts : Prop extends Facts₀ where

variable [Facts]
-- ==== Proof.Spec.lean ====
/-
  Masked softmax attention of one query row against an embedding table, written once on the extended
  reals in the two arrangements the two programs compute it in, and once over the reals.

  A row has logits `z f` (only their sign is used: position `f` is ACTIVE when `0 < z f`), a context
  vector `c k`, and the table `e f k` (`f < 1024`, `k < 128`). The raw score of position `f` is the inner
  product `∑ k, c k * e f k`, scaled by `1 / D` (`D` the divisor `f32(√128)`).

  * The fused arrangement (`kernelRow`): scores times the reciprocal `κ`, shifted by the maximum over
    ALL positions, exponentiated, gated by the activity bit; the gated exponentials are contracted with
    column `j` of the table and divided ONCE by (their sum, or 1 when it vanishes) times (the number of
    active positions, or 1).
  * The staged arrangement (`referenceRow`): scores divided by `D`, shifted by the maximum over the
    ACTIVE positions (0 when there are none), exponentiated where active and 0 elsewhere, normalised by
    their sum (or 1), contracted with column `j`, then divided by the number of active positions (or 1).

  Over the reals both are the same number: the softmax weights do not depend on the shift (numerator
  and denominator carry the same factor `exp (M' - M)`), and dividing once by a product is dividing
  twice. `kernelRowR` / `referenceRowR` are the two arrangements over ℝ at an ARBITRARY shift.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## On the extended reals -/

/-- The activity bit of a logit as a number: `1` where the logit is positive, `0` elsewhere. -/
def gate (x : EReal) : EReal := if 0 < x then 1 else 0

/-- How many positions of a row are active. -/
def active (z : Fin 1024 → EReal) : ℕ := (Finset.univ.filter fun f : Fin 1024 => 0 < z f).card

/-- The raw score of position `f`: the inner product of the context vector with row `f` of the table. -/
def score (c : Fin 128 → EReal) (e : Fin 1024 → Fin 128 → EReal) (f : Fin 1024) : EReal :=
  ∑ k : Fin 128, c k * e f k

/-- The reciprocal of the score divisor, `2^20 / 11863283`. -/
def invScale : EReal := ((1048576 / 11863283 : ℝ) : EReal)

/-- The score divisor as the staged arrangement carries it: the f32 word of `√128`. -/
def refScale : EReal := Ideal.ofBits .f32 0x413504F3#32

/-- The fused arrangement of one output entry `(row, j)`. -/
def kernelRow (κ : EReal) (z : Fin 1024 → EReal) (c : Fin 128 → EReal) (e : Fin 1024 → Fin 128 → EReal)
    (j : Fin 128) : EReal :=
  Ideal.div
    (∑ f : Fin 1024,
      (Ideal.exp (score c e f * κ - (Finset.univ : Finset (Fin 1024)).fold max ⊥ (fun f' => score c e f' * κ))
        * gate (z f)) * e f j)
    ((if (∑ f : Fin 1024,
            Ideal.exp (score c e f * κ - (Finset.univ : Finset (Fin 1024)).fold max ⊥ (fun f' => score c e f' * κ))
              * gate (z f)) = 0
        then 1
        else ∑ f : Fin 1024,
            Ideal.exp (score c e f * κ - (Finset.univ : Finset (Fin 1024)).fold max ⊥ (fun f' => score c e f' * κ))
              * gate (z f))
      * max (∑ f : Fin 1024, gate (z f)) 1)

/-- The shift of the staged arrangement: the maximum scaled score over the active positions, `0` when
    no position is active (the maximum of nothing is `⊥`). -/
def refShift (D : EReal) (z : Fin 1024 → EReal) (c : Fin 128 → EReal) (e : Fin 1024 → Fin 128 → EReal) : EReal :=
  if (Finset.univ : Finset (Fin 1024)).fold max ⊥ (fun f => if 0 < z f then Ideal.div (score c e f) D else ⊥) = ⊥
  then 0
  else (Finset.univ : Finset (Fin 1024)).fold max ⊥ (fun f => if 0 < z f then Ideal.div (score c e f) D else ⊥)

/-- The staged arrangement's exponential of position `f`: shifted where active, `0` elsewhere. -/
def refExp (D : EReal) (z : Fin 1024 → EReal) (c : Fin 128 → EReal) (e : Fin 1024 → Fin 128 → EReal)
    (f : Fin 1024) : EReal :=
  if 0 < z f then Ideal.exp (Ideal.div (score c e f) D - refShift D z c e) else 0

/-- The staged arrangement of one output entry `(row, j)`. -/
def referenceRow (D : EReal) (z : Fin 1024 → EReal) (c : Fin 128 → EReal) (e : Fin 1024 → Fin 128 → EReal)
    (j : Fin 128) : EReal :=
  Ideal.div
    (∑ f : Fin 1024,
      Ideal.div (refExp D z c e f) (if (∑ f' : Fin 1024, refExp D z c e f') = 0 then 1 else ∑ f' : Fin 1024, refExp D z c e f')
        * e f j)
    (((max 1 (active z) : ℕ) : ℝ) : EReal)

/-! ## Over the reals, at an arbitrary shift `M` -/

/-- The activity bit as a real number. -/
def gateR (z : Fin 1024 → EReal) (f : Fin 1024) : ℝ := if 0 < z f then 1 else 0

/-- The scaled score over the reals. -/
def scoreR (c : Fin 128 → ℝ) (e : Fin 1024 → Fin 128 → ℝ) (f : Fin 1024) : ℝ :=
  (∑ k : Fin 128, c k * e f k) * (1048576 / 11863283)

/-- The gated exponential of position `f` at shift `M`. -/
def expR (z : Fin 1024 → EReal) (c : Fin 128 → ℝ) (e : Fin 1024 → Fin 128 → ℝ) (M : ℝ) (f : Fin 1024) : ℝ :=
  Real.exp (scoreR c e f - M) * gateR z f

/-- A normaliser that vanishes is replaced by `1`. -/
def safe (d : ℝ) : ℝ := if d = 0 then 1 else d

/-- The fused arrangement over ℝ at shift `M`. -/
def kernelRowR (z : Fin 1024 → EReal) (c : Fin 128 → ℝ) (e : Fin 1024 → Fin 128 → ℝ) (j : Fin 128) (M : ℝ) : ℝ :=
  (∑ f : Fin 1024, expR z c e M f * e f j)
    / (safe (∑ f : Fin 1024, expR z c e M f) * max ((active z : ℕ) : ℝ) 1)

/-- The staged arrangement over ℝ at shift `M`. -/
def referenceRowR (z : Fin 1024 → EReal) (c : Fin 128 → ℝ) (e : Fin 1024 → Fin 128 → ℝ) (j : Fin 128) (M : ℝ) : ℝ :=
  (∑ f : Fin 1024, expR z c e M f / safe (∑ f' : Fin 1024, expR z c e M f') * e f j)
    / max ((active z : ℕ) : ℝ) 1

/-! ## Small shared facts -/

/-- A finite sum of real numbers, formed in the extended reals, is the real sum. -/
theorem coe_sum {ι : Type} (s : Finset ι) (x : ι → ℝ) :
    (∑ i ∈ s, ((x i : ℝ) : EReal)) = ((∑ i ∈ s, x i : ℝ) : EReal) := by
  classical
  induction s using Finset.induction_on with
  | empty => simp
  | insert a s ha ih => rw [Finset.sum_insert ha, Finset.sum_insert ha, ih, EReal.coe_add]

/-- The gate of a logit is the real gate. -/
theorem gate_eq (z : Fin 1024 → EReal) (f : Fin 1024) : gate (z f) = ((gateR z f : ℝ) : EReal) := by
  unfold gate gateR; split <;> simp

/-- The gates of a row add up to the number of active positions. -/
theorem sum_gateR (z : Fin 1024 → EReal) : (∑ f : Fin 1024, gateR z f) = ((active z : ℕ) : ℝ) := by
  unfold gateR active
  rw [Finset.sum_boole]

/-! ## The whole array -/

/-- The attention output as ONE function of the three argument arrays, in the fused arrangement:
    entry `(b, j)` is `kernelRow` of row `b` of the logits, row `b` of the contexts, and the table. -/
def attention (z : (⟨2, ![1024, 1024]⟩ : Shape).Idx → EReal) (c e : (⟨2, ![1024, 128]⟩ : Shape).Idx → EReal) :
    (⟨2, ![1024, 128]⟩ : Shape).Idx → EReal :=
  fun i => kernelRow invScale (fun f => z (ix2 (i 0) f)) (fun k => c (ix2 (i 0) k)) (fun f k => e (ix2 f k)) (i 1)

theorem attention_apply (z : (⟨2, ![1024, 1024]⟩ : Shape).Idx → EReal) (c e : (⟨2, ![1024, 128]⟩ : Shape).Idx → EReal)
    (b : Fin 1024) (j : Fin 128) :
    attention z c e (ix2 b j)
      = kernelRow invScale (fun f => z (ix2 b f)) (fun k => c (ix2 b k)) (fun f k => e (ix2 f k)) j := rfl

end Cert.Attn

end
-- ==== Proof.Finite.lean ====
/-
  What the precondition gives: every entry of the context array and of the embedding table is a real number.
  The printed predicate is the conjunction of three "all entries have |x| < +∞" tests, one per argument; an extended
  real whose absolute value max x (-x) lies strictly below +∞ is neither +∞ nor -∞.
-/
import proofs.«178666_g69982197121800_cont_sun_m_1311_10_alg».proof.Pre_finite_inputs
import proofs.«178666_g69982197121800_cont_sun_m_1311_10_alg».proof.Proof.Gen.Pre_finite_inputs
import Idealize.ShloMosaic.Lib.ReduceAll
import Idealize.ShloMosaic.Lib.ValueIdx
import Idealize.ShloMosaic.PureOps.Ideal.Laws

noncomputable section

namespace Cert.Attn

open Idealize.ShloMosaic Idealize.ShloMosaic.ValueIdx Cert.Pre_finite_inputs

/-- A rank-0 shape has one index. -/
instance subsingleton_scalar_idx : Subsingleton S_.Idx := ⟨fun _ _ => funext fun d => d.elim0⟩

/-- The f32 word 0x7F800000 denotes +∞. -/
theorem ofBits_pos_inf : Ideal.ofBits .f32 0x7F800000#32 = ⊤ := by
  simp [Ideal.ofBits, Ideal.ieee]

/-- An extended real whose absolute value is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test: the comparison bit `|x| < +∞` is set exactly for a real `x`. -/
theorem real_of_test (x : EReal) (h : Ideal.cmp .olt (max x (-x)) (Ideal.ofBits .f32 0x7F800000#32) = 1#1) :
    ∃ r : ℝ, x = (r : EReal) := by
  rw [ofBits_pos_inf] at h
  refine real_of_abs_lt_top x ?_
  by_contra hn
  simp [Ideal.cmp, hn] at h

/-- Under the precondition the second and third arguments hold real numbers only. -/
theorem real_of_pre (z : FVec Ideal S1024x1024 .f32) (c e : FVec Ideal S1024x128 .f32)
    (h : Cert.Pre_finite_inputs.fn (F := Ideal) z c e = fun _ => 1#1) :
    (∀ i, ∃ r : ℝ, c i = (r : EReal)) ∧ (∀ i, ∃ r : ℝ, e i = (r : EReal)) := by
  have h0 := congrFun h ix0
  dsimp only [Cert.Pre_finite_inputs.fn] at h0
  obtain ⟨h8, h12⟩ := IntOp.andi_eq_one.1 h0
  obtain ⟨_, h7⟩ := IntOp.andi_eq_one.1 h8
  refine ⟨fun i => real_of_test (c i) ?_, fun i => real_of_test (e i) ?_⟩
  · exact Host.reduce_andi_all _ _ _ _ ix0 h7 i
  · exact Host.reduce_andi_all _ _ _ _ ix0 h12 i

end Cert.Attn

end
-- ==== Proof.KernelLift.lean ====
/-
  The fused arrangement on real data is a real number.

  With a real context vector and a real table every piece of `kernelRow` is the coercion of a real:
  the scaled score is a finite sum of products of reals times a real constant; the shift, a maximum over the
  1024 > 0 positions of coerced reals, is a coerced real `M`; the exponential of a real difference is the real
  exponential; the gate is `0` or `1`; sums and products of coerced reals are coerced sums and products;
  a normaliser that vanishes is replaced by `1` on both sides; the count of active positions is a natural number;
  and dividing by a nonzero real is multiplying by its reciprocal. Hence `kernelRow` is `kernelRowR` at shift `M`.
-/
import proofs.«178666_g69982197121800_cont_sun_m_1311_10_alg».proof.Proof.Spec

noncomputable section

open scoped BigOperators

namespace Cert.Attn

open Idealize.ShloMosaic Idealize.ShloMosaic.ValueIdx

/-- The scaled score of real data is the coercion of the real scaled score: a finite sum of products of
    coerced reals is the coerced sum of products, and the scale is a coerced real. -/
theorem score_mul_invScale_coe (c : Fin 128 → ℝ) (e : Fin 1024 → Fin 128 → ℝ) (f : Fin 1024) :
    score (fun k => ((c k : ℝ) : EReal)) (fun f k => ((e f k : ℝ) : EReal)) f * invScale
      = ((scoreR c e f : ℝ) : EReal) := by
  unfold score invScale scoreR
  simp only [← EReal.coe_mul]
  rw [coe_sum, ← EReal.coe_mul]

/-- The coercion of reals into the extended reals is monotone, so it carries a maximum to the maximum. -/
theorem coe_max_real (a b : ℝ) : ((max a b : ℝ) : EReal) = max ((a : ℝ) : EReal) ((b : ℝ) : EReal) :=
  EReal.coe_strictMono.monotone.map_max

/-- The maximum (starting from `⊥`) of coerced reals over a nonempty finite set is a coerced real. -/
theorem fold_max_coe {ι : Type} (g : ι → ℝ) (s : Finset ι) (hs : s.Nonempty) :
    ∃ M : ℝ, s.fold max ⊥ (fun i => ((g i : ℝ) : EReal)) = ((M : ℝ) : EReal) := by
  classical
  induction s using Finset.induction_on with
  | empty => exact absurd hs Finset.not_nonempty_empty
  | insert a s ha ih =>
    rw [Finset.fold_insert ha]
    rcases s.eq_empty_or_nonempty with h | h
    · subst h
      exact ⟨g a, by rw [Finset.fold_empty, max_eq_left bot_le]⟩
    · obtain ⟨M, hM⟩ := ih h
      exact ⟨max (g a) M, by rw [hM, coe_max_real]⟩

/-- One gated exponential of real data at a real shift is the coercion of the real gated exponential. -/
theorem exp_gate_coe (z : Fin 1024 → EReal) (c : Fin 128 → ℝ) (e : Fin 1024 → Fin 128 → ℝ) (M : ℝ)
    (f : Fin 1024) :
    Ideal.exp (((scoreR c e f : ℝ) : EReal) - ((M : ℝ) : EReal)) * gate (z f)
      = ((expR z c e M f : ℝ) : EReal) := by
  rw [← EReal.coe_sub, Ideal.exp_coe, gate_eq, ← EReal.coe_mul]
  rfl

/-- The guarded normaliser of a coerced real is the coercion of the guarded real normaliser. -/
theorem safe_coe (d : ℝ) :
    (if ((d : ℝ) : EReal) = 0 then (1 : EReal) else ((d : ℝ) : EReal)) = ((safe d : ℝ) : EReal) := by
  unfold safe
  by_cases h : d = 0
  · rw [if_pos h, if_pos (by rw [h]; rfl)]; rfl
  · rw [if_neg h, if_neg (fun h' => h (EReal.coe_eq_zero.mp h'))]

/-- The guarded normaliser never vanishes. -/
theorem safe_ne_zero (d : ℝ) : safe d ≠ 0 := by
  unfold safe
  by_cases h : d = 0
  · rw [if_pos h]; exact one_ne_zero
  · rw [if_neg h]; exact h

/-- Dividing a coerced real once by (guarded normaliser) times (count or 1) is the real quotient. -/
theorem div_assemble (N d n : ℝ) :
    Ideal.div ((N : ℝ) : EReal)
        ((if ((d : ℝ) : EReal) = 0 then (1 : EReal) else ((d : ℝ) : EReal)) * max ((n : ℝ) : EReal) 1)
      = ((N / (safe d * max n 1) : ℝ) : EReal) := by
  have hy : safe d * max n 1 ≠ 0 :=
    mul_ne_zero (safe_ne_zero d) (ne_of_gt (lt_of_lt_of_le one_pos (le_max_right n 1)))
  rw [safe_coe, ← EReal.coe_one, ← coe_max_real, ← EReal.coe_mul, Ideal.div_coe hy, ← EReal.coe_mul,
    mul_one_div]

/-- On real data the fused arrangement is `kernelRowR` at some real shift. -/
theorem kernelRow_lift (z : Fin 1024 → EReal) (c : Fin 128 → ℝ) (e : Fin 1024 → Fin 128 → ℝ) (j : Fin 128) :
    ∃ M : ℝ, kernelRow invScale z (fun k => ((c k : ℝ) : EReal)) (fun f k => ((e f k : ℝ) : EReal)) j
      = ((kernelRowR z c e j M : ℝ) : EReal) := by
  obtain ⟨M, hM⟩ := fold_max_coe (scoreR c e) (Finset.univ : Finset (Fin 1024)) Finset.univ_nonempty
  refine ⟨M, ?_⟩
  unfold kernelRow kernelRowR
  simp only [score_mul_invScale_coe]
  rw [hM]
  simp only [exp_gate_coe, ← EReal.coe_mul, coe_sum, gate_eq, sum_gateR]
  exact div_assemble _ _ _

end Cert.Attn

end
-- ==== Proof.ReferenceLift.lean ====
/-
  The staged arrangement evaluated on real data is itself a real number.

  With a real context vector `c` and a real table `e`, every quantity the staged arrangement forms stays finite:
  * the divisor word `0x413504F3` (sign 0, exponent field 130, trailing significand `0x3504F3`) denotes
    `(2^23 + 0x3504F3) * 2^(130 - 127 - 23) = 11863283 / 2^20`, a nonzero real, so dividing by it is multiplying
    by `2^20 / 11863283`: the scaled score is the coercion of `scoreR`;
  * the shift is a maximum of finitely many values each of which is `⊥` or a real, hence `⊥` or a real, and `⊥` is
    replaced by `0`: a real number `M` either way;
  * the gated exponentials are then coercions of `expR` at that `M`, their sum is a coerced real sum, the guarded
    normaliser is the coercion of `safe`, which never vanishes, and the count `max 1 (active z)` is at least `1`.
  So `referenceRow` at this divisor is the coercion of `referenceRowR` at the shift `M`.
-/
import proofs.«178666_g69982197121800_cont_sun_m_1311_10_alg».proof.Proof.Spec

noncomputable section

open scoped BigOperators

namespace Cert.Attn

open Idealize.ShloMosaic Idealize.ShloMosaic.ValueIdx

/-- The divisor's word denotes the dyadic rational `11863283 / 2^20`. -/
theorem refScale_eq : refScale = ((11863283 / 1048576 : ℝ) : EReal) := by
  unfold refScale
  simp [Ideal.ofBits, Ideal.ieee, -EReal.coe_mul]; norm_num

/-- The raw score of real data is the coerced real inner product. -/
theorem score_coe (c : Fin 128 → ℝ) (e : Fin 1024 → Fin 128 → ℝ) (f : Fin 1024) :
    score (fun k => ((c k : ℝ) : EReal)) (fun f k => ((e f k : ℝ) : EReal)) f
      = ((∑ k : Fin 128, c k * e f k : ℝ) : EReal) := by
  unfold score
  simp only [← EReal.coe_mul]
  exact coe_sum _ _

/-- Dividing the raw score by `11863283 / 2^20` is multiplying it by `2^20 / 11863283`: the scaled score. -/
theorem div_score_coe (c : Fin 128 → ℝ) (e : Fin 1024 → Fin 128 → ℝ) (f : Fin 1024) :
    Ideal.div (score (fun k => ((c k : ℝ) : EReal)) (fun f k => ((e f k : ℝ) : EReal)) f) refScale
      = ((scoreR c e f : ℝ) : EReal) := by
  have hD : (11863283 / 1048576 : ℝ) ≠ 0 := by norm_num
  rw [refScale_eq, Ideal.div_coe hD, score_coe, ← EReal.coe_mul]
  unfold scoreR
  congr 1
  norm_num

/-- A maximum of finitely many values, each `⊥` or a real number, is `⊥` or a real number. -/
theorem fold_max_bot_or_coe {ι : Type} (s : Finset ι) (g : ι → EReal)
    (hg : ∀ i, g i = ⊥ ∨ ∃ r : ℝ, g i = ((r : ℝ) : EReal)) :
    s.fold max ⊥ g = ⊥ ∨ ∃ r : ℝ, s.fold max ⊥ g = ((r : ℝ) : EReal) := by
  classical
  induction s using Finset.induction_on with
  | empty => left; simp
  | insert a s ha ih =>
    rw [Finset.fold_insert ha]
    rcases max_choice (g a) (s.fold max ⊥ g) with h | h
    · rw [h]; exact hg a
    · rw [h]; exact ih

/-- The shift of the staged arrangement on real data is a real number. -/
theorem refShift_coe (z : Fin 1024 → EReal) (c : Fin 128 → ℝ) (e : Fin 1024 → Fin 128 → ℝ) :
    ∃ M : ℝ, refShift refScale z (fun k => ((c k : ℝ) : EReal)) (fun f k => ((e f k : ℝ) : EReal))
      = ((M : ℝ) : EReal) := by
  unfold refShift
  have hg : ∀ f : Fin 1024,
      (if 0 < z f then Ideal.div (score (fun k => ((c k : ℝ) : EReal)) (fun f k => ((e f k : ℝ) : EReal)) f) refScale
        else (⊥ : EReal)) = ⊥
      ∨ ∃ r : ℝ, (if 0 < z f
          then Ideal.div (score (fun k => ((c k : ℝ) : EReal)) (fun f k => ((e f k : ℝ) : EReal)) f) refScale
          else (⊥ : EReal)) = ((r : ℝ) : EReal) := by
    intro f
    by_cases hz : 0 < z f
    · right; exact ⟨scoreR c e f, by rw [if_pos hz]; exact div_score_coe c e f⟩
    · left; rw [if_neg hz]
  rcases fold_max_bot_or_coe (Finset.univ : Finset (Fin 1024)) _ hg with h | ⟨r, hr⟩
  · exact ⟨0, by rw [if_pos h]; exact EReal.coe_zero.symm⟩
  · refine ⟨r, ?_⟩
    rw [hr, if_neg (EReal.coe_ne_bot r)]

/-- The staged exponential of position `f` on real data is the coerced gated exponential at the shift. -/
theorem refExp_coe (z : Fin 1024 → EReal) (c : Fin 128 → ℝ) (e : Fin 1024 → Fin 128 → ℝ) (M : ℝ)
    (hM : refShift refScale z (fun k => ((c k : ℝ) : EReal)) (fun f k => ((e f k : ℝ) : EReal)) = ((M : ℝ) : EReal))
    (f : Fin 1024) :
    refExp refScale z (fun k => ((c k : ℝ) : EReal)) (fun f k => ((e f k : ℝ) : EReal)) f
      = ((expR z c e M f : ℝ) : EReal) := by
  unfold refExp expR gateR
  by_cases hz : 0 < z f
  · rw [if_pos hz, if_pos hz, hM, div_score_coe, ← EReal.coe_sub, Ideal.exp_coe, mul_one]
  · rw [if_neg hz, if_neg hz, mul_zero, EReal.coe_zero]

/-- The guarded normaliser never vanishes. -/
theorem guard_ne_zero (d : ℝ) : safe d ≠ 0 := by
  unfold safe
  by_cases h : d = 0
  · rw [if_pos h]; exact one_ne_zero
  · rw [if_neg h]; exact h

/-- The guard on a coerced real is the coerced guard. -/
theorem guard_coe (d : ℝ) : (if ((d : ℝ) : EReal) = 0 then (1 : EReal) else ((d : ℝ) : EReal)) = ((safe d : ℝ) : EReal) := by
  unfold safe
  by_cases h : d = 0
  · rw [if_pos h, if_pos (by rw [h]; exact EReal.coe_zero)]; exact EReal.coe_one.symm
  · rw [if_neg h, if_neg (by rwa [EReal.coe_eq_zero])]

/-- Dividing a coerced real by a coerced nonzero real is the coerced quotient. -/
theorem div_coe_coe (a : ℝ) {y : ℝ} (hy : y ≠ 0) : Ideal.div ((a : ℝ) : EReal) ((y : ℝ) : EReal) = ((a / y : ℝ) : EReal) := by
  rw [Ideal.div_coe hy, ← EReal.coe_mul, mul_one_div]

/-- The count `max 1 (active z)` as a real number, and that it is not zero. -/
theorem count_cast (z : Fin 1024 → EReal) : (((max 1 (active z) : ℕ) : ℝ)) = max ((active z : ℕ) : ℝ) 1 := by
  rw [Nat.cast_max, Nat.cast_one, max_comm]

theorem count_ne_zero (z : Fin 1024 → EReal) : max ((active z : ℕ) : ℝ) 1 ≠ 0 :=
  (lt_of_lt_of_le one_pos (le_max_right _ _)).ne'

/-- On real data the staged arrangement is `referenceRowR` at some real shift. -/
theorem referenceRow_lift (z : Fin 1024 → EReal) (c : Fin 128 → ℝ) (e : Fin 1024 → Fin 128 → ℝ) (j : Fin 128) :
    ∃ M : ℝ, referenceRow refScale z (fun k => ((c k : ℝ) : EReal)) (fun f k => ((e f k : ℝ) : EReal)) j
      = ((referenceRowR z c e j M : ℝ) : EReal) := by
  obtain ⟨M, hM⟩ := refShift_coe z c e
  refine ⟨M, ?_⟩
  -- the sum of the staged exponentials is the coerced real sum
  have hsum : (∑ f' : Fin 1024, refExp refScale z (fun k => ((c k : ℝ) : EReal)) (fun f k => ((e f k : ℝ) : EReal)) f')
      = ((∑ f' : Fin 1024, expR z c e M f' : ℝ) : EReal) := by
    rw [← coe_sum]
    exact Finset.sum_congr rfl (fun f' _ => refExp_coe z c e M hM f')
  -- each normalised, contracted term is a coerced real
  have hterm : ∀ f : Fin 1024,
      Ideal.div (refExp refScale z (fun k => ((c k : ℝ) : EReal)) (fun f k => ((e f k : ℝ) : EReal)) f)
          (if (∑ f' : Fin 1024, refExp refScale z (fun k => ((c k : ℝ) : EReal)) (fun f k => ((e f k : ℝ) : EReal)) f') = 0
            then 1
            else ∑ f' : Fin 1024, refExp refScale z (fun k => ((c k : ℝ) : EReal)) (fun f k => ((e f k : ℝ) : EReal)) f')
          * ((e f j : ℝ) : EReal)
        = ((expR z c e M f / safe (∑ f' : Fin 1024, expR z c e M f') * e f j : ℝ) : EReal) := by
    intro f
    rw [hsum, guard_coe, refExp_coe z c e M hM f, div_coe_coe _ (guard_ne_zero _), ← EReal.coe_mul]
  unfold referenceRow referenceRowR
  rw [Finset.sum_congr rfl (fun f _ => hterm f), coe_sum, count_cast, div_coe_coe _ (count_ne_zero z)]

end Cert.Attn

end
-- ==== Proof.Shift.lean ====
/-
  Over the reals the two arrangements are one number, whatever the two shifts.

  Write `a f = exp (score f) * gate f ≥ 0` for the gated weight of position `f` with no shift at all. The gated
  exponential at shift `M` is `exp (-M) * a f`, so with `S = ∑ f, a f` and `T = ∑ f, a f * e f j` the normaliser at
  shift `M` is `exp (-M) * S` and the contracted numerator is `exp (-M) * T`. If `S = 0` every `a f` vanishes (a sum of
  nonnegative terms), hence `T = 0`; otherwise the positive factor `exp (-M)` cancels. Either way
  `(exp (-M) * T) / safe (exp (-M) * S) = T / safe S`, which does not mention the shift. Finally each summand
  `x / d * y` is `x * y / d`, so the staged sum is the fused numerator over the normaliser, and dividing once by a
  product is dividing twice. Both arrangements are therefore `T / safe S / max (active) 1`.
-/
import proofs.«178666_g69982197121800_cont_sun_m_1311_10_alg».proof.Proof.Spec

noncomputable section

open scoped BigOperators

namespace Cert.Attn

open Idealize.ShloMosaic Idealize.ShloMosaic.ValueIdx

/-- The activity bit is `0` or `1`, in particular nonnegative. -/
theorem gateR_nonneg (z : Fin 1024 → EReal) (f : Fin 1024) : 0 ≤ gateR z f := by
  unfold gateR
  split
  · exact zero_le_one
  · exact le_refl 0

/-- The gated exponential at shift `M` is the unshifted gated weight times `exp (-M)`
    (`exp (s - M) = exp s * exp (-M)`). -/
theorem expR_eq (z : Fin 1024 → EReal) (c : Fin 128 → ℝ) (e : Fin 1024 → Fin 128 → ℝ) (M : ℝ) (f : Fin 1024) :
    expR z c e M f = Real.exp (-M) * (Real.exp (scoreR c e f) * gateR z f) := by
  unfold expR
  rw [sub_eq_add_neg, Real.exp_add]
  ring

/-- The normaliser at shift `M` is `exp (-M)` times the unshifted one. -/
theorem sum_expR (z : Fin 1024 → EReal) (c : Fin 128 → ℝ) (e : Fin 1024 → Fin 128 → ℝ) (M : ℝ) :
    (∑ f : Fin 1024, expR z c e M f)
      = Real.exp (-M) * ∑ f : Fin 1024, Real.exp (scoreR c e f) * gateR z f := by
  rw [Finset.mul_sum]
  exact Finset.sum_congr rfl fun f _ => expR_eq z c e M f

/-- The contracted numerator at shift `M` is `exp (-M)` times the unshifted one. -/
theorem sum_expR_mul (z : Fin 1024 → EReal) (c : Fin 128 → ℝ) (e : Fin 1024 → Fin 128 → ℝ) (j : Fin 128) (M : ℝ) :
    (∑ f : Fin 1024, expR z c e M f * e f j)
      = Real.exp (-M) * ∑ f : Fin 1024, Real.exp (scoreR c e f) * gateR z f * e f j := by
  rw [Finset.mul_sum]
  refine Finset.sum_congr rfl fun f _ => ?_
  rw [expR_eq]
  ring

/-- If the unshifted weights add up to `0` then each of them is `0` (they are nonnegative), and so is their
    contraction with any column. -/
theorem contraction_eq_zero (z : Fin 1024 → EReal) (c : Fin 128 → ℝ) (e : Fin 1024 → Fin 128 → ℝ) (j : Fin 128)
    (hS : (∑ f : Fin 1024, Real.exp (scoreR c e f) * gateR z f) = 0) :
    (∑ f : Fin 1024, Real.exp (scoreR c e f) * gateR z f * e f j) = 0 := by
  have hnn : ∀ f ∈ (Finset.univ : Finset (Fin 1024)), 0 ≤ Real.exp (scoreR c e f) * gateR z f :=
    fun f _ => mul_nonneg (Real.exp_pos _).le (gateR_nonneg z f)
  have h := (Finset.sum_eq_zero_iff_of_nonneg hnn).1 hS
  exact Finset.sum_eq_zero fun f hf => by rw [h f hf, zero_mul]

/-- A common nonzero factor of numerator and normaliser cancels through `safe`, provided the numerator
    vanishes whenever the normaliser does. -/
theorem scale_div_safe {E S T : ℝ} (hE : E ≠ 0) (h0 : S = 0 → T = 0) :
    (E * T) / safe (E * S) = T / safe S := by
  by_cases hS : S = 0
  · rw [h0 hS, mul_zero, zero_div, zero_div]
  · have hES : E * S ≠ 0 := mul_ne_zero hE hS
    unfold safe
    rw [if_neg hES, if_neg hS, mul_div_mul_left _ _ hE]

/-- Softmax weights do not depend on the shift, and the two ways of normalising agree. -/
theorem kernelRowR_eq_referenceRowR (z : Fin 1024 → EReal) (c : Fin 128 → ℝ) (e : Fin 1024 → Fin 128 → ℝ) (j : Fin 128)
    (M M' : ℝ) : kernelRowR z c e j M = referenceRowR z c e j M' := by
  have h0 := contraction_eq_zero z c e j
  -- the staged sum is the fused numerator over the normaliser: `x / d * y = x * y / d` termwise
  have hR : (∑ f : Fin 1024, expR z c e M' f / safe (∑ f' : Fin 1024, expR z c e M' f') * e f j)
      = (∑ f : Fin 1024, expR z c e M' f * e f j) / safe (∑ f' : Fin 1024, expR z c e M' f') := by
    rw [Finset.sum_div]
    exact Finset.sum_congr rfl fun f _ => div_mul_eq_mul_div _ _ _
  unfold kernelRowR referenceRowR
  rw [hR, ← div_div, sum_expR z c e M, sum_expR z c e M', sum_expR_mul z c e j M, sum_expR_mul z c e j M',
    scale_div_safe (Real.exp_ne_zero _) h0, scale_div_safe (Real.exp_ne_zero _) h0]

end Cert.Attn

end
-- ==== Proof.Rows.lean ====
/-
  On real data the fused and the staged arrangement of a row are one extended real: each is the coercion of its
  real-number form at the shift it takes itself, and over the reals the two forms agree at any pair of shifts.
  Lifted to the arrays: the reference's staged arrangement, row by row, is the whole-array function `attention`.
-/
import proofs.«178666_g69982197121800_cont_sun_m_1311_10_alg».proof.Proof.Spec
import proofs.«178666_g69982197121800_cont_sun_m_1311_10_alg».proof.Proof.KernelLift
import proofs.«178666_g69982197121800_cont_sun_m_1311_10_alg».proof.Proof.ReferenceLift
import proofs.«178666_g69982197121800_cont_sun_m_1311_10_alg».proof.Proof.Shift

noncomputable section

namespace Cert.Attn

open Idealize.ShloMosaic Idealize.ShloMosaic.ValueIdx

/-- With a real context vector and a real table the two arrangements of a row agree, whatever the logits. -/
theorem kernelRow_eq_referenceRow (z : Fin 1024 → EReal) (c : Fin 128 → EReal) (e : Fin 1024 → Fin 128 → EReal)
    (j : Fin 128) (hc : ∀ k, ∃ r : ℝ, c k = (r : EReal)) (he : ∀ f k, ∃ r : ℝ, e f k = (r : EReal)) :
    kernelRow invScale z c e j = referenceRow refScale z c e j := by
  choose cr hcr using hc
  choose er her using he
  obtain rfl : c = fun k => ((cr k : ℝ) : EReal) := funext hcr
  obtain rfl : e = fun f k => ((er f k : ℝ) : EReal) := funext fun f => funext fun k => her f k
  obtain ⟨M, hM⟩ := kernelRow_lift z cr er j
  obtain ⟨M', hM'⟩ := referenceRow_lift z cr er j
  rw [hM, hM', kernelRowR_eq_referenceRowR z cr er j M M']

/-- Entry `(b, j)` of `attention` is the staged arrangement of row `b`, when the contexts and the table are real. -/
theorem attention_eq_referenceRow (z : (⟨2, ![1024, 1024]⟩ : Shape).Idx → EReal)
    (c e : (⟨2, ![1024, 128]⟩ : Shape).Idx → EReal)
    (hc : ∀ i, ∃ r : ℝ, c i = (r : EReal)) (he : ∀ i, ∃ r : ℝ, e i = (r : EReal)) (b : Fin 1024) (j : Fin 128) :
    attention z c e (ix2 b j)
      = referenceRow refScale (fun f => z (ix2 b f)) (fun k => c (ix2 b k)) (fun f k => e (ix2 f k)) j := by
  rw [attention_apply]
  exact kernelRow_eq_referenceRow _ _ _ j (fun k => hc (ix2 b k)) (fun f k => he (ix2 f k))

end Cert.Attn

end
-- ==== Proof.KernelPayload.lean ====
/-
  The fused kernel's stored value, read at one entry `(p, j)` of its 512 x 128 output block: it is the fused
  arrangement `kernelRow` of row `p` of the logits block, row `p` of the context block and the whole table.

  The body is one term of its three loaded blocks. Read at `(p, j)` it is a quotient. Its numerator is the
  contraction over the 1024 positions `f` of (the exponential of the scaled score of `f`, shifted by the row's
  maximum scaled score, times the activity bit of logit `(p, f)`) with entry `(f, j)` of the table; the score of `f` is
  the inner product over 128 coordinates of row `p` of the contexts with row `f` of the table, and a change of float
  format is the identity on extended reals. Its denominator is (the sum of the gated exponentials of the row, or `1`
  when that sum is `0`) times (the number of active positions of the row as a sum of activity bits, or `1` when
  that is smaller). Every elementwise operation reads through at the index; what is proved here, one lemma each, is
  how the operations that move or combine entries read at literal coordinates: a length-512 vector recast as a
  column and a column broadcast along its unit axis (the row statistics kept as `[512, 1]` arrays), the sum and the
  maximum along the 1024 lanes of a row, and the two contractions into a zero accumulator; then the words: the
  widened compare bit converted to a float is the activity bit, the select on "denominator = 0" is the guarded
  denominator, and the named scale constant is `invScale`.
-/
import proofs.«178666_g69982197121800_cont_sun_m_1311_10_alg».proof.Proof.Gen.KernelIdeal.Skeleton
import proofs.«178666_g69982197121800_cont_sun_m_1311_10_alg».proof.Proof.Spec
import Idealize.ShloMosaic.Lib.Pipeline.Value
import Idealize.ShloMosaic.Lib.ValueLayout
import Idealize.ShloMosaic.PureOps.IdealRules

noncomputable section

open scoped BigOperators

namespace Cert.Attn

open Idealize.ShloMosaic Idealize.ShloMosaic.ValueIdx

/-! ## Row statistics kept as columns -/

section PayLayout
variable {α : Type}

/-- A vector of length `a` recast as a column `[a, 1]` reads, at `(i, u)`, the vector at `i`: both have row-major
    position `i`. -/
theorem pay_shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, c)`, the column at `(p, 0)`. -/
theorem pay_broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PayLayout

/-! ## The reductions along a row's 1024 lanes -/

section PayReduce
open Cert.KernelIdeal

/-- The sum along the lanes of a `512 × 1024` block, at row `p`: the sum over the row's entries (the source index over
    row `p` with lane `f` inserted is `(p, f)`). -/
theorem pay_rowSum_apply (x : FVec Ideal S512x1024 .f32) (h : S512x1024.Reduces [1] S512) (p : Fin 512) :
    Ideal.reduceAdd h x (ix1 p) = ∑ f : Fin 1024, x (ix2 p f) := by
  refine (Ideal.reduceAdd_single h x (ix1 p)).trans ?_
  show ∑ f : Fin 1024, x (h.lift (ix1 p) f) = _
  refine Finset.sum_congr rfl fun f _ => congrArg x ?_
  funext c
  match c with
  | ⟨0, _⟩ => rfl
  | ⟨1, _⟩ => rfl

/-- The maximum along the lanes of a `512 × 1024` block, at row `p`: the fold of `max` over the row from `⊥`, which is
    what the accumulator's word `0xFF800000` (f32's `-∞`) denotes. -/
theorem pay_rowMax_apply (x : FVec Ideal S512x1024 .f32) (h : S512x1024.Reduces [1] S512) (p : Fin 512) :
    reduceFold h (FloatOps.maximumf (F := Ideal) (φ := .f32)) (FloatOps.ofBits .f32 0xFF800000#32) x (ix1 p)
      = (Finset.univ : Finset (Fin 1024)).fold max ⊥ (fun f => x (ix2 p f)) := by
  refine (Ideal.multiReduction_maximumf_single x 0xFF800000#32 h (.inl rfl) rfl (ix1 p)).trans ?_
  have hb : FloatOps.ofBits (F := Ideal) .f32 0xFF800000#32 = (⊥ : EReal) := by
    show Ideal.ofBits .f32 0xFF800000#32 = ⊥
    simp [Ideal.ofBits, Ideal.ieee]
  have hf : (x ∘ h.lift (ix1 p)) = fun f : Fin 1024 => x (ix2 p f) := by
    funext f
    refine congrArg x ?_
    funext c
    match c with
    | ⟨0, _⟩ => rfl
    | ⟨1, _⟩ => rfl
  show (Finset.univ : Finset (Fin 1024)).fold max (FloatOps.ofBits (F := Ideal) .f32 0xFF800000#32) (x ∘ h.lift (ix1 p)) = _
  rw [hb, hf]
  rfl

end PayReduce

/-! ## The two contractions -/

section PayDots
open Cert.KernelIdeal

/-- Scores contraction, left operand: its row coordinate is the output's row … -/
theorem pay_lhs_scores_0 (j : S512x1024.Idx) (k : dot_S512x128_S1024x128_S512x1024_1_1_0_0_n_n.contr.Idx) :
    (dot_S512x128_S1024x128_S512x1024_1_1_0_0_n_n.lhsIdx j k 0).val = (j 0).val := by
  simp [DotDims.lhsIdx, dot_S512x128_S1024x128_S512x1024_1_1_0_0_n_n]
  rfl
/-- … and its column coordinate the contraction position. -/
theorem pay_lhs_scores_1 (j : S512x1024.Idx) (k : dot_S512x128_S1024x128_S512x1024_1_1_0_0_n_n.contr.Idx) :
    (dot_S512x128_S1024x128_S512x1024_1_1_0_0_n_n.lhsIdx j k 1).val = (k ⟨0, by decide⟩).val :=
  dot_S512x128_S1024x128_S512x1024_1_1_0_0_n_n.lhsIdx_val_of_single rfl j k
/-- Scores contraction, right operand: its row coordinate is the output's column … -/
theorem pay_rhs_scores_0 (j : S512x1024.Idx) (k : dot_S512x128_S1024x128_S512x1024_1_1_0_0_n_n.contr.Idx) :
    (dot_S512x128_S1024x128_S512x1024_1_1_0_0_n_n.rhsIdx j k 0).val = (j 1).val := by
  simp [DotDims.rhsIdx, dot_S512x128_S1024x128_S512x1024_1_1_0_0_n_n]
  rfl
/-- … and its column coordinate the contraction position. -/
theorem pay_rhs_scores_1 (j : S512x1024.Idx) (k : dot_S512x128_S1024x128_S512x1024_1_1_0_0_n_n.contr.Idx) :
    (dot_S512x128_S1024x128_S512x1024_1_1_0_0_n_n.rhsIdx j k 1).val = (k ⟨0, by decide⟩).val :=
  dot_S512x128_S1024x128_S512x1024_1_1_0_0_n_n.rhsIdx_val_of_single rfl j k

/-- The product `a · bᵀ` of a `512 × 128` by a `1024 × 128` block into a zero accumulator, at `(p, f)`: the inner
    product of row `p` of `a` with row `f` of `b` (the one-axis contraction index re-indexed by its coordinate). -/
theorem pay_scores_apply {φ₁ φ₂ : FTy} (a : FVec Ideal S512x128 φ₁) (b : FVec Ideal S1024x128 φ₂) (p : Fin 512) (f : Fin 1024) :
    matmul dot_S512x128_S1024x128_S512x1024_1_1_0_0_n_n none a b (constant S512x1024 .f32 0x00000000#32) (ix2 p f)
      = ∑ k : Fin 128, a (ix2 p k) * b (ix2 f k) := by
  refine (Ideal.matmul_constant_zero_apply _ none a b (ix2 p f)).trans ?_
  rw [← Equiv.sum_comp (contrEquiv1 dot_S512x128_S1024x128_S512x1024_1_1_0_0_n_n 128 rfl rfl).symm]
  refine Finset.sum_congr rfl fun k _ => ?_
  have ck := contrEquiv1_symm_val dot_S512x128_S1024x128_S512x1024_1_1_0_0_n_n 128 rfl rfl k
  have hl : dot_S512x128_S1024x128_S512x1024_1_1_0_0_n_n.lhsIdx (ix2 p f)
      ((contrEquiv1 dot_S512x128_S1024x128_S512x1024_1_1_0_0_n_n 128 rfl rfl).symm k) = ix2 p k := by
    funext ax; apply Fin.ext
    match ax with
    | ⟨0, _⟩ => exact pay_lhs_scores_0 _ _
    | ⟨1, _⟩ => exact (pay_lhs_scores_1 _ _).trans ck
  have hr : dot_S512x128_S1024x128_S512x1024_1_1_0_0_n_n.rhsIdx (ix2 p f)
      ((contrEquiv1 dot_S512x128_S1024x128_S512x1024_1_1_0_0_n_n 128 rfl rfl).symm k) = ix2 f k := by
    funext ax; apply Fin.ext
    match ax with
    | ⟨0, _⟩ => exact pay_rhs_scores_0 _ _
    | ⟨1, _⟩ => exact (pay_rhs_scores_1 _ _).trans ck
  rw [hl, hr]

/-- Output contraction, left operand: its row coordinate is the output's row … -/
theorem pay_lhs_out_0 (j : S512x128.Idx) (k : dot_S512x1024_S1024x128_S512x128_1_0_0_1_n_n.contr.Idx) :
    (dot_S512x1024_S1024x128_S512x128_1_0_0_1_n_n.lhsIdx j k 0).val = (j 0).val := by
  simp [DotDims.lhsIdx, dot_S512x1024_S1024x128_S512x128_1_0_0_1_n_n]
  rfl
/-- … and its column coordinate the contraction position. -/
theorem pay_lhs_out_1 (j : S512x128.Idx) (k : dot_S512x1024_S1024x128_S512x128_1_0_0_1_n_n.contr.Idx) :
    (dot_S512x1024_S1024x128_S512x128_1_0_0_1_n_n.lhsIdx j k 1).val = (k ⟨0, by decide⟩).val :=
  dot_S512x1024_S1024x128_S512x128_1_0_0_1_n_n.lhsIdx_val_of_single rfl j k
/-- Output contraction, right operand: its row coordinate is the contraction position … -/
theorem pay_rhs_out_0 (j : S512x128.Idx) (k : dot_S512x1024_S1024x128_S512x128_1_0_0_1_n_n.contr.Idx) :
    (dot_S512x1024_S1024x128_S512x128_1_0_0_1_n_n.rhsIdx j k 0).val = (k ⟨0, by decide⟩).val :=
  dot_S512x1024_S1024x128_S512x128_1_0_0_1_n_n.rhsIdx_val_of_single rfl j k
/-- … and its column coordinate the output's column. -/
theorem pay_rhs_out_1 (j : S512x128.Idx) (k : dot_S512x1024_S1024x128_S512x128_1_0_0_1_n_n.contr.Idx) :
    (dot_S512x1024_S1024x128_S512x128_1_0_0_1_n_n.rhsIdx j k 1).val = (j 1).val := by
  simp [DotDims.rhsIdx, dot_S512x1024_S1024x128_S512x128_1_0_0_1_n_n]
  rfl

/-- The product `w · b` of a `512 × 1024` by a `1024 × 128` block into a zero accumulator, at `(p, j)`: row `p` of
    `w` contracted with column `j` of `b`. -/
theorem pay_out_apply {φ₁ φ₂ : FTy} (w : FVec Ideal S512x1024 φ₁) (b : FVec Ideal S1024x128 φ₂) (p : Fin 512) (j : Fin 128) :
    matmul dot_S512x1024_S1024x128_S512x128_1_0_0_1_n_n none w b (constant S512x128 .f32 0x00000000#32) (ix2 p j)
      = ∑ f : Fin 1024, w (ix2 p f) * b (ix2 f j) := by
  refine (Ideal.matmul_constant_zero_apply _ none w b (ix2 p j)).trans ?_
  rw [← Equiv.sum_comp (contrEquiv1 dot_S512x1024_S1024x128_S512x128_1_0_0_1_n_n 1024 rfl rfl).symm]
  refine Finset.sum_congr rfl fun f _ => ?_
  have cf := contrEquiv1_symm_val dot_S512x1024_S1024x128_S512x128_1_0_0_1_n_n 1024 rfl rfl f
  have hl : dot_S512x1024_S1024x128_S512x128_1_0_0_1_n_n.lhsIdx (ix2 p j)
      ((contrEquiv1 dot_S512x1024_S1024x128_S512x128_1_0_0_1_n_n 1024 rfl rfl).symm f) = ix2 p f := by
    funext ax; apply Fin.ext
    match ax with
    | ⟨0, _⟩ => exact pay_lhs_out_0 _ _
    | ⟨1, _⟩ => exact (pay_lhs_out_1 _ _).trans cf
  have hr : dot_S512x1024_S1024x128_S512x128_1_0_0_1_n_n.rhsIdx (ix2 p j)
      ((contrEquiv1 dot_S512x1024_S1024x128_S512x128_1_0_0_1_n_n 1024 rfl rfl).symm f) = ix2 f j := by
    funext ax; apply Fin.ext
    match ax with
    | ⟨0, _⟩ => exact (pay_rhs_out_0 _ _).trans cf
    | ⟨1, _⟩ => exact pay_rhs_out_1 _ _
  rw [hl, hr]

end PayDots

/-! ## Words and elements -/

section PayWords

/-- The f32 word of `1.0` is the extended real `1`. -/
theorem pay_ofBits_one_f32 : Ideal.ofBits .f32 0x3F800000#32 = 1 := by
  simp [Ideal.ofBits, Ideal.ieee, -EReal.coe_mul]; norm_num

/-- The bit of `0 < x`, widened to a word and read as a signed integer, is the activity bit of `x` as a number. -/
theorem pay_gate_word (x : EReal) : (((BitVec.setWidth 32 (Ideal.cmp .ogt x 0)).toInt : ℝ) : EReal) = gate x := by
  unfold gate
  by_cases h : 0 < x
  · have hc : Ideal.cmp .ogt x 0 = 1#1 := by simp [Ideal.cmp, h]
    rw [hc, if_pos h]
    have : ((1#1 : BitVec 1).setWidth 32).toInt = 1 := by decide
    rw [this]; norm_num
  · have hc : Ideal.cmp .ogt x 0 = 0#1 := by simp [Ideal.cmp, h]
    rw [hc, if_neg h]
    have : ((0#1 : BitVec 1).setWidth 32).toInt = 0 := by decide
    rw [this]; norm_num

/-- A select on the bit of `d = 0` between `1` and `d` replaces a vanishing `d` by `1`. -/
theorem pay_safe_word (d : EReal) : Scalar.select (Ideal.cmp .oeq d 0) (1 : EReal) d = if d = 0 then 1 else d := by
  by_cases h : d = 0
  · have hc : Ideal.cmp .oeq d 0 = 1#1 := by simp [Ideal.cmp, h]
    rw [hc, select_one, if_pos h]
  · have hc : Ideal.cmp .oeq d 0 = 0#1 := by simp [Ideal.cmp, h]
    rw [hc, select_zero, if_neg h]

/-- The exponential of a vector at an index is the exponential of the element. -/
theorem pay_exp_apply {s : Shape} {φ : FTy} (x : FVec Ideal s φ) (i : s.Idx) : exp x i = Ideal.exp (x i) := rfl

/-- The mask of a block of logits — the compare with zero, widened and converted — at an index is the activity bit
    of the logit there. -/
theorem pay_mask_apply {s : Shape} (z : FVec Ideal s .f32) (h : 1 < 32) (i : s.Idx) :
    (sitofp .f32 (extui 32 (cmpf .ogt z (broadcast s (Scalar.ofBits .f32 0x00000000#32))) h) : FVec Ideal s .f32) i
      = gate (z i) := by
  show (((BitVec.setWidth 32 (Ideal.cmp .ogt (z i) (Ideal.ofBits .f32 0x00000000#32))).toInt : ℝ) : EReal) = _
  rw [Ideal.ofBits_zero_f32]
  exact pay_gate_word _

/-- The named scale constant is the reciprocal `2^20 / 11863283` of the score divisor. -/
theorem pay_named_invScale :
    Named.named (F := Ideal) Cert.KernelIdeal.κ "inv_scale" (φ := .f32) 0x3DB504F3#32 = invScale :=
  IdealRules.named_const.ideal_named_scalar _ _ _ _ rfl

end PayWords

/-! ## The stored value at an entry -/

open Cert.KernelIdeal in
/-- Entry `(p, j)` of the value the body stores, as a function of the three loaded blocks. -/
theorem payload_apply (v0 : FVec Ideal S512x128 .f32) (v1 : FVec Ideal S1024x128 .f32) (v7 : FVec Ideal S512x1024 .f32)
    (p : Fin 512) (j : Fin 128) :
    Cert.KernelIdeal.Gen.k0_pay1 (F := Ideal) v0 v1 v7 (ix2 p j)
      = kernelRow invScale (fun f => v7 (ix2 p f)) (fun k => v0 (ix2 p k)) (fun f k => v1 (ix2 f k)) j := by
  unfold Cert.KernelIdeal.Gen.k0_pay1
  -- every operation read at its index: the quotient, the two contractions, the column layouts, the lane reductions
  -- (a reduction of kind `add` is the instance's sum, one of kind `maximumf` the fold from the accumulator's value)
  simp only [multiReduction, Ideal.reduceAdd_def, divf_apply, pay_out_apply, pay_broadcastTo_a1_ab_apply, mulf_apply,
    select_apply, cmpf_apply, broadcast_apply, maximumf_apply, pay_shapeCast_a_a1_apply, pay_rowSum_apply,
    pay_rowMax_apply, subf_apply, pay_exp_apply, pay_mask_apply, pay_scores_apply, truncf_apply, pay_named_invScale]
  -- the words `0.0` and `1.0`, and the select on "denominator = 0"
  simp only [Ideal.cmpf_def, Ideal.ofBits_def, Ideal.ofBits_zero_f32, pay_ofBits_one_f32, pay_safe_word]
  -- what is left is `kernelRow` with `score` written out
  unfold kernelRow score
  rfl

end Cert.Attn

end
-- ==== Proof.KernelArray.lean ====
/-
  The fused kernel's output array after the run, as ONE function of the three argument arrays.

  The grid has two points; point `t` stages rows `512 t … 512 t + 511` of the logits and of the contexts, the whole
  table, and writes back rows `512 t … 512 t + 511` of the output. What it writes at row `p`, column `j` of its block
  is the fused arrangement of block row `p` — which is array row `512 t + p` — so each written block is the
  restriction of the one whole-array function `Cert.Attn.attention`, and the two blocks cover the 1024 rows.
-/
import proofs.«178666_g69982197121800_cont_sun_m_1311_10_alg».proof.Proof.Gen.KernelIdeal.Value
import proofs.«178666_g69982197121800_cont_sun_m_1311_10_alg».proof.Proof.Spec
import proofs.«178666_g69982197121800_cont_sun_m_1311_10_alg».proof.Proof.KernelPayload

noncomputable section

namespace Cert.KernelIdeal.AttnValue

open Cert.KernelIdeal Cert.KernelIdeal.Gen Idealize.ShloMosaic Idealize.ShloMosaic.TcCoe Idealize.SL.Sem
open Idealize.ShloMosaic.Pipeline (Dat)
open Idealize.ShloMosaic.ValueIdx Cert.Attn

variable (m : (ℓ : Loc nD τ sig) → Buf (Elt Ideal) ℓ) (ρ : Dev nD → PrngReg)

/-- The logits array as the region finds it. -/
abbrev zarr (c : Dev nD) : FVec Ideal S1024x1024 .f32 := V m c main_arg0
/-- The context array as the region finds it. -/
abbrev carr (c : Dev nD) : FVec Ideal S1024x128 .f32 := V m c main_arg1
/-- The embedding table as the region finds it. -/
abbrev earr (c : Dev nD) : FVec Ideal S1024x128 .f32 := V m c main_arg2

theorem zero_offsets : (![0, 0] : Fin 2 → Nat) = fun _ => 0 := funext fun a => by fin_cases a <;> rfl

/-- The printed index maps, decided over the two grid points: the logits and context windows move with the output
    window along the rows and sit at column block 0; the table's window never moves; the output's row block is 0 or 1. -/
theorem index_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 1 :=
  (by decide +kernel : ∀ t : Fin grid0.N, _)

/-- Each of the two row blocks is some point's. -/
theorem index_onto : ∀ q : Fin 2, ∃ t : Fin cfg0.N, win0_3.index t = ![q.val, 0] :=
  (by decide +kernel : ∀ q : Fin 2, ∃ t : Fin grid0.N, win0_3.index t = ![q.val, 0])

/-- WHAT POINT `t` WRITES BACK is block `t` of `attention` of the argument arrays. -/
theorem flushed_eq (c : Dev nD) (t : Fin cfg0.N) :
    (dats m 0 c).flushed 3 t
      = ((cfg0.win 3).blk t).view.read (Elt Ideal) (attention (zarr m c) (carr m c) (earr m c)) := by
  rw [Value.flushed3]
  unfold out0_3
  rw [View.canon_unit_zero zero_offsets]
  simp only [View.ld_unit_zero (S := S512x128) zero_offsets, View.ld_unit_zero (S := S1024x128) zero_offsets,
    View.ld_unit_zero (S := S512x1024) zero_offsets]
  obtain ⟨e0, e1, e2, e3, e4, e5, e6, e7⟩ := index_facts t
  funext y
  obtain ⟨p, j, rfl⟩ : ∃ (p : Fin 512) (j : Fin 128), y = ix2 p j := ⟨y 0, y 1, eq_ix2 y⟩
  have hrow : win0_3.index t (0 : Fin 2) * 512 + p.val < 1024 := by have := p.isLt; omega
  -- the block's entry (p, j) sits at array entry (512 t + p, j)
  have hemb : ((cfg0.win 3).blk t).view.emb (ix2 p j)
      = (ix2 (⟨win0_3.index t (0 : Fin 2) * 512 + p.val, hrow⟩ : Fin 1024) j : S1024x128.Idx) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 128 + 1 * j.val = j.val; omega
  show k0_pay1 (F := Ideal) (iblk m c 1 t) (iblk m c 2 t) (iblk m c 0 t) (ix2 p j)
      = attention (zarr m c) (carr m c) (earr m c) (((cfg0.win 3).blk t).view.emb (ix2 p j))
  rw [hemb, attention_apply]
  refine (payload_apply (iblk m c 1 t) (iblk m c 2 t) (iblk m c 0 t) p j).trans ?_
  -- each input block read where the output's row says
  have hz : ∀ f : Fin 1024, iblk m c 0 t (ix2 p f)
      = zarr m c (ix2 (⟨win0_3.index t (0 : Fin 2) * 512 + p.val, hrow⟩ : Fin 1024) f) := fun f => by
    show V m c main_arg0 (((cfg0.win 0).blk t).view.emb (ix2 p f)) = V m c main_arg0 _
    refine congrArg (V m c main_arg0) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 1024 + 1 * f.val = f.val; omega
  have hc : ∀ k : Fin 128, iblk m c 1 t (ix2 p k)
      = carr m c (ix2 (⟨win0_3.index t (0 : Fin 2) * 512 + p.val, hrow⟩ : Fin 1024) k) := fun k => by
    show V m c main_arg1 (((cfg0.win 1).blk t).view.emb (ix2 p k)) = V m c main_arg1 _
    refine congrArg (V m c main_arg1) (funext fun a => Fin.ext ?_)
    match a with
    | ⟨0, _⟩ => show win0_1.index t (0 : Fin 2) * 512 + 1 * p.val = win0_3.index t (0 : Fin 2) * 512 + p.val; omega
    | ⟨1, _⟩ => show win0_1.index t (1 : Fin 2) * 128 + 1 * k.val = k.val; omega
  have he : ∀ (f : Fin 1024) (k : Fin 128), iblk m c 2 t (ix2 f k) = earr m c (ix2 f k) := fun f k => by
    show V m c main_arg2 (((cfg0.win 2).blk t).view.emb (ix2 f k)) = V m c main_arg2 _
    refine congrArg (V m c main_arg2) (funext fun a => Fin.ext ?_)
    match a with
    | ⟨0, _⟩ => show win0_2.index t (0 : Fin 2) * 1024 + 1 * f.val = f.val; omega
    | ⟨1, _⟩ => show win0_2.index t (1 : Fin 2) * 128 + 1 * k.val = k.val; omega
  simp only [hz, hc, he]

/-- An index of the output array is in point `t`'s block iff each coordinate is in the block's range on its axis. -/
theorem mem_blk (t : Fin cfg0.N) (i : S1024x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v0).slice (win0_3.rect t)).set ↔ _
  rw [View.set_slice_whole, Rect.mem_set_unit]
  exact Iff.rfl

/-- Every index of the output array is in some writing point's block: row `r` is in row block `r / 512`. -/
theorem covered (i : S1024x128.Idx) :
    ∃ t : Fin cfg0.N, (cfg0.win 3).flush t = true ∧ i ∈ ((cfg0.win 3).blk t).view.set := by
  have hi0 : (i 0).val < 1024 := (i 0).isLt
  have hi1 : (i 1).val < 128 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- THE OUTPUT ARRAY after the run is `attention` of the argument arrays. -/
theorem final (c : Dev nD) :
    (dats m 0 c).arrAt 3 cfg0.N = attention (zarr m c) (carr m c) (earr m c) :=
  (dats m 0 c).arrAt_eq_of_cover 3 (attention (zarr m c) (carr m c) (earr m c)) (fun t _ => flushed_eq m c t) covered

/-- The kernel's run re-posted: the result array at `attention` of the launched arguments, the arguments unchanged. -/
theorem run : θ_run defs (onTc (τ := τ) (main (F := Ideal))) ⟨m, fun _ => 0, ρ⟩ fun r => ∀ c : Dev nD,
      r.2.mem ((c : Thread nD τ).loc main_v0)
        = attention (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AttnValue

end
-- ==== Proof.ReferenceExp.lean ====
/-
  The reference's gated exponential, read at entry `(b, f)`: it is the staged arrangement's `refExp` of row `b` of the
  logits, row `b` of the contexts and the whole table.

  Stage by stage at an index: the score of `(b, f)` is `0 + ∑ k, c (b, k) * e (f, k)` (the two operands broadcast
  along `f` and along `b`), divided by the f32 word of `√128`; the mask bit `z (b, f) > 0` selects as the condition
  `0 < z (b, f)` does, so the masked score is the scaled score where active and `-∞ = ⊥` elsewhere; a maximum over
  one axis from `-∞` is, since `max` is commutative and associative, the fold of `max` from `⊥` over that axis's
  coordinates; the comparison of that maximum with `-∞` selects `0` exactly when it is `⊥`, which is `refShift`;
  the shift is broadcast along the row, subtracted, exponentiated, and gated once more by the same mask bit.
-/
import proofs.«178666_g69982197121800_cont_sun_m_1311_10_alg».proof.Proof.RefRead
import proofs.«178666_g69982197121800_cont_sun_m_1311_10_alg».proof.Proof.Spec
import Idealize.ShloMosaic.Lib.StableHlo.Predicate

noncomputable section

open scoped BigOperators

namespace Cert.Attn

open Idealize.ShloMosaic Idealize.ShloMosaic.ValueIdx

section Stages

open Cert.ReferenceIdeal Cert.ReferenceIdeal.ReadP

/-- The comparison `x > 0` as a mask bit selects as the condition `0 < x` does. -/
theorem rexp_select_gt_zero {α : Type} (x : EReal) (a b : α) :
    Scalar.select (Ideal.cmp .ogt x 0) a b = if 0 < x then a else b := by
  unfold Scalar.select Ideal.cmp
  by_cases h : 0 < x
  · simp [h]
  · simp [h]

/-- The comparison `x = -∞` as a mask bit selects as the condition `x = ⊥` does. -/
theorem rexp_select_eq_bot {α : Type} (x : EReal) (a b : α) :
    Scalar.select (Ideal.cmp .oeq x ⊥) a b = if x = ⊥ then a else b := by
  unfold Scalar.select Ideal.cmp
  by_cases h : x = ⊥
  · simp [h]
  · simp [h]

/-- The f32 word of `-∞` is the bottom of the extended reals. -/
theorem rexp_ofBits_neg_inf : Ideal.ofBits .f32 0xFF800000#32 = (⊥ : EReal) := by
  simp [Ideal.ofBits, Ideal.ieee]

/-- Entry `(b, f, k)` of the context broadcast along `f` is entry `(b, k)` of the contexts. -/
theorem rexp_idx_c (b f : Fin 1024) (k : Fin 128) :
    idx_main_v2 (idx_main_v4 (idx_main_v7 (ix2 b f) k)) = ix2 b k :=
  funext fun a => Fin.ext (by match a with | ⟨0, _⟩ => rfl | ⟨1, _⟩ => rfl)

/-- Entry `(b, f, k)` of the table broadcast along `b` is entry `(f, k)` of the table. -/
theorem rexp_idx_e (b f : Fin 1024) (k : Fin 128) :
    idx_main_v3 (idx_main_v5 (idx_main_v7 (ix2 b f) k)) = ix2 f k :=
  funext fun a => Fin.ext (by match a with | ⟨0, _⟩ => rfl | ⟨1, _⟩ => rfl)

/-- Entry `(b, f)` of the scaled scores: the inner product of context row `b` with table row `f`, divided by the
    score divisor. -/
theorem rexp_v9_stage (c e : FVec Ideal S1024x128 .f32) (b f : Fin 1024) :
    val_main_v9 (F := Ideal) c e (ix2 b f)
      = Ideal.div (score (fun k => c (ix2 b k)) (fun f' k => e (ix2 f' k)) f) refScale := by
  rw [val_main_v9_apply, val_main_v7_apply, val_main_v8_apply, val_main_cst_1_apply, val_main_cst_0_apply]
  simp only [val_main_v6_apply, val_main_v4_apply, val_main_v5_apply, val_main_v2_apply, val_main_v3_apply,
    rexp_idx_c, rexp_idx_e, Ideal.hostDivf_def, Ideal.ofBits_def, Ideal.ofBits_zero_f32, zero_add, Ideal.mulf_def]
  rfl

/-- Entry `(b, f)` of the masked scores: the scaled score where the logit is positive, `-∞` elsewhere. -/
theorem rexp_v10_stage (z : FVec Ideal S1024x1024 .f32) (c e : FVec Ideal S1024x128 .f32) (b f : Fin 1024) :
    val_main_v10 (F := Ideal) z c e (ix2 b f)
      = if 0 < z (ix2 b f) then Ideal.div (score (fun k => c (ix2 b k)) (fun f' k => e (ix2 f' k)) f) refScale
        else ⊥ := by
  rw [val_main_v10_apply, val_main_v1_apply, val_main_v0_apply, val_main_cst_apply, val_main_call0_v1_apply,
    val_main_call0_v0_apply, val_main_cst_2_apply, rexp_v9_stage, Ideal.cmpf_def, Ideal.ofBits_def, Ideal.ofBits_def,
    Ideal.ofBits_zero_f32, rexp_ofBits_neg_inf, rexp_select_gt_zero]

/-- Row index `b` with column `k` put back on the reduced axis is `(b, k)`. -/
theorem rexp_lift_row (h : S1024x1024.Reduces [1] S1024) (b : Fin 1024) (k : Fin (S1024x1024.size 1)) :
    h.lift (ix1 b) k = ix2 b (⟨k.val, k.isLt⟩ : Fin 1024) := by
  funext a; apply Fin.ext
  match a with
  | ⟨0, _⟩ => rfl
  | ⟨1, _⟩ => rfl

/-- Entry `b` of the row maxima: the maximum, from `-∞`, of the masked scores of row `b`. -/
theorem rexp_v11_stage (z : FVec Ideal S1024x1024 .f32) (c e : FVec Ideal S1024x128 .f32) (b : Fin 1024) :
    val_main_v11 (F := Ideal) z c e (ix1 b)
      = (Finset.univ : Finset (Fin 1024)).fold max ⊥ (fun f =>
          if 0 < z (ix2 b f) then Ideal.div (score (fun k => c (ix2 b k)) (fun f' k => e (ix2 f' k)) f) refScale
          else ⊥) := by
  have h : S1024x1024.Reduces [1] S1024 := by decide
  unfold val_main_v11
  rw [Host.reduce_eq_fold_single FloatOps.maximumf _ _ Gen.reducesTo_S1024x1024_S1024_d1 h Gen.h_S_]
  have hf : (val_main_v10 (F := Ideal) z c e ∘ h.lift (ix1 b)) = fun f : Fin 1024 =>
      if 0 < z (ix2 b f) then Ideal.div (score (fun k => c (ix2 b k)) (fun f' k => e (ix2 f' k)) f) refScale
      else ⊥ := funext fun k => by
    show val_main_v10 (F := Ideal) z c e (h.lift (ix1 b) k) = _
    rw [rexp_lift_row, rexp_v10_stage]
    rfl
  rw [hf, val_main_cst_3_apply, Ideal.ofBits_def, rexp_ofBits_neg_inf]
  rfl

/-- Row `b`'s shift: its masked maximum, or `0` when that is `-∞` (no active position). -/
theorem rexp_v14_stage (z : FVec Ideal S1024x1024 .f32) (c e : FVec Ideal S1024x128 .f32) (b : Fin 1024) :
    val_main_v14 (F := Ideal) z c e (ix1 b)
      = refShift refScale (fun f' => z (ix2 b f')) (fun k => c (ix2 b k)) (fun f' k => e (ix2 f' k)) := by
  rw [val_main_v14_apply, val_main_v13_apply, val_main_v12_apply, val_main_cst_4_apply, val_main_call1_v1_apply,
    val_main_call1_v0_apply, val_main_cst_5_apply, rexp_v11_stage, Ideal.cmpf_def, Ideal.ofBits_def, Ideal.ofBits_def,
    Ideal.ofBits_zero_f32, rexp_ofBits_neg_inf, rexp_select_eq_bot]
  rfl

/-- Entry `(b, f)` of the shift broadcast along the row is entry `b` of the shifts. -/
theorem rexp_idx_shift (b f : Fin 1024) : idx_main_v15 (idx_main_v16 (ix2 b f)) = ix1 b :=
  funext fun a => Fin.ext (by match a with | ⟨0, _⟩ => rfl)

end Stages

open Cert.ReferenceIdeal in
/-- Entry `(b, f)` of the gated exponentials. -/
theorem exp_stage_apply (z : FVec Ideal S1024x1024 .f32) (c e : FVec Ideal S1024x128 .f32) (b f : Fin 1024) :
    Cert.ReferenceIdeal.ReadP.val_main_v19 (F := Ideal) z c e (ix2 b f)
      = refExp refScale (fun f' => z (ix2 b f')) (fun k => c (ix2 b k)) (fun f' k => e (ix2 f' k)) f := by
  rw [ReadP.val_main_v19_apply, ReadP.val_main_v1_apply, ReadP.val_main_v0_apply, ReadP.val_main_cst_apply,
    ReadP.val_main_v18_apply, ReadP.val_main_v17_apply, ReadP.val_main_v16_apply, ReadP.val_main_v15_apply,
    rexp_idx_shift, rexp_v14_stage, rexp_v9_stage, ReadP.val_main_call2_v1_apply, ReadP.val_main_call2_v0_apply,
    ReadP.val_main_cst_6_apply, Ideal.cmpf_def, Ideal.ofBits_def, Ideal.ofBits_zero_f32, rexp_select_gt_zero,
    Ideal.hostUnary_exp_def, Ideal.subf_def]
  rfl

end Cert.Attn

end
-- ==== Proof.ReferenceCount.lean ====
/-
  The divisor of the staged arrangement, read at entry `(b, j)` of the output.

  The staged program forms it in these steps: the one-bit mask "logit positive" (the ordered comparison of an extended
  real with `0` is set exactly where `0 < z`), widened to 32-bit words; the word sum of a row of the widened mask,
  which is the NUMBER of set bits of that row because a sum of at most 1024 zeros and ones does not wrap; the signed
  maximum of that word with the word `1`; the signed reading of the result as a float; and two broadcasts (a vector
  to a column, a column along the 128 output columns) which read the same row `b` whatever the column `j`.

  A row has 1024 positions, so the count is at most `1024 < 2^31`: the count word and the word `1` are both
  non-negative as signed words, they compare as their values, the signed maximum is the word of `max 1 count`, and its
  signed reading is that natural number. The count of set bits is `active` of the row by the first step.
-/
import proofs.«178666_g69982197121800_cont_sun_m_1311_10_alg».proof.Proof.RefRead
import proofs.«178666_g69982197121800_cont_sun_m_1311_10_alg».proof.Proof.Spec
import Idealize.ShloMosaic.Lib.StableHlo.Predicate

noncomputable section

open scoped BigOperators

namespace Cert.Attn

open Idealize.ShloMosaic Idealize.ShloMosaic.ValueIdx

section Pieces

open Cert.ReferenceIdeal Cert.ReferenceIdeal.Gen Idealize.ShloMosaic.StableHlo.Predicate

/-- The two spellings of "row `p`, column `q`" are the same index. -/
theorem rcnt_ij_eq_ix2 {n m : Nat} (p : Fin n) (q : Fin m) : ij p q = ix2 p q := by
  funext d; match d with | ⟨0, _⟩ => rfl | ⟨1, _⟩ => rfl

/-- The mask bit of position `(b, f)` is set exactly where the logit is positive. -/
theorem rcnt_mask_bit_iff (z : FVec Ideal S1024x1024 .f32) (b f : Fin 1024) :
    ReadP.val_main_v1 (F := Ideal) z (ix2 b f) = 1#1 ↔ (0 : EReal) < z (ix2 b f) := by
  rw [ReadP.val_main_v1_apply, ReadP.val_main_v0_apply, ReadP.val_main_cst_apply, Ideal.cmpf_def, Ideal.ofBits_def,
    Ideal.ofBits_zero_f32]
  unfold Ideal.cmp
  rw [ofBool_eq_one_iff, decide_eq_true_iff]

/-- A row has at most 1024 active positions. -/
theorem rcnt_active_le (x : Fin 1024 → EReal) : active x ≤ 1024 := by
  unfold active
  exact le_trans (Finset.card_le_univ _) (by rw [Fintype.card_fin])

/-- The word sum of row `b` of the widened mask is the number of active positions of that row. -/
theorem rcnt_count_toNat (z : FVec Ideal S1024x1024 .f32) (b : Fin 1024) :
    (ReadP.val_main_v34 (F := Ideal) z (ix1 b)).toNat = active fun f => z (ix2 b f) := by
  unfold ReadP.val_main_v34 ReadP.val_main_v33 ReadP.val_main_c
  rw [toNat_reduce_count_cols (by norm_num) (ReadP.val_main_v1 (F := Ideal) z) natLt_1_32
    reducesTo_S1024x1024_S1024_d1 h_S_ (ix1 b)]
  unfold active
  refine congrArg Finset.card (Finset.filter_congr fun q _ => ?_)
  show ReadP.val_main_v1 (F := Ideal) z (ij b q) = 1#1 ↔ (0 : EReal) < z (ix2 b q)
  rw [rcnt_ij_eq_ix2]
  exact rcnt_mask_bit_iff z b q

/-- The signed maximum of the word `1` with a word below `2^31`, read as a signed integer, is `max 1` of its value. -/
theorem rcnt_maxsi_one_toInt (w : BitVec 32) (hw : w.toNat < 2 ^ 31) :
    (IntOp.maxsi 1#32 w).toInt = ((max 1 w.toNat : ℕ) : ℤ) := by
  have h1 : (1#32 : BitVec 32).toNat < 2 ^ 31 := by decide
  have e1 : (1#32 : BitVec 32).toNat = 1 := rfl
  have hslt : w.slt 1#32 = true ↔ w.toNat < 1 := by
    have h := slt_bool_iff_toNat hw h1
    rw [ofBool_eq_one_iff, e1] at h
    exact h
  unfold IntOp.maxsi
  by_cases h : w.slt 1#32 = true
  · have hlt := hslt.1 h
    rw [if_pos h, toInt_eq_toNat_of_lt h1, e1, max_eq_left (by omega)]
  · have hge : ¬ w.toNat < 1 := fun hh => h (hslt.2 hh)
    rw [if_neg h, toInt_eq_toNat_of_lt hw, max_eq_right (by omega)]

end Pieces

open Cert.ReferenceIdeal in
/-- Entry `(b, j)` of the broadcast count: the number of positive logits of row `b`, or 1 if there is none. -/
theorem count_stage_apply (z : FVec Ideal S1024x1024 .f32) (b : Fin 1024) (j : Fin 128) :
    Cert.ReferenceIdeal.ReadP.val_main_v38 (F := Ideal) z (ix2 b j)
      = (((max 1 (active fun f => z (ix2 b f)) : ℕ) : ℝ) : EReal) := by
  have hidx : ReadP.idx_main_v36 (ReadP.idx_main_v38 (ix2 b j)) = ix1 b :=
    funext fun a => Fin.ext (by match a with | ⟨0, _⟩ => rfl)
  rw [ReadP.val_main_v38_apply, ReadP.val_main_v37_apply, ReadP.val_main_v36_apply, hidx, ReadP.val_main_v35_apply,
    ReadP.val_main_call4_v1_apply, ReadP.val_main_call4_v0_apply, ReadP.val_main_c_11_apply]
  have hc := rcnt_count_toNat z b
  have hlt : (ReadP.val_main_v34 (F := Ideal) z (ix1 b)).toNat < 2 ^ 31 := by
    rw [hc]; exact lt_of_le_of_lt (rcnt_active_le _) (by norm_num)
  show (((IntOp.maxsi 1#32 (ReadP.val_main_v34 (F := Ideal) z (ix1 b))).toInt : ℝ) : EReal) = _
  rw [rcnt_maxsi_one_toInt _ hlt, hc, Int.cast_natCast]

end Cert.Attn

end
-- ==== Proof.ReferenceRead.lean ====
/-
  The reference program's result, read at one entry `(b, j)`: it is the staged arrangement `referenceRow` of row `b`
  of the logits, row `b` of the contexts and the whole table.

  Reading the last stages outermost first at entry `(b, j)`:
  * the result is the contraction divided by the broadcast count of active positions (at least 1);
  * the contraction is `0 + ∑ f` of the product array at `(b, f, j)`, whose two factors are the weight `(b, f)`
    broadcast along `j` and the table entry `(f, j)` broadcast along `b`;
  * the weight `(b, f)` is the gated exponential `(b, f)` divided by the row's guarded normaliser, broadcast along the row;
  * the guarded normaliser of row `b` is a select on "the sum equals 0" between the constant `1` and the sum;
  * the sum is `0 + ∑ f` of the gated exponentials of row `b`.
  With the gated exponential identified as `refExp` and the count as `max 1 (active …)`, this is `referenceRow` word for word.
-/
import proofs.«178666_g69982197121800_cont_sun_m_1311_10_alg».proof.Proof.RefRead
import proofs.«178666_g69982197121800_cont_sun_m_1311_10_alg».proof.Proof.Spec
import proofs.«178666_g69982197121800_cont_sun_m_1311_10_alg».proof.Proof.ReferenceExp
import proofs.«178666_g69982197121800_cont_sun_m_1311_10_alg».proof.Proof.ReferenceCount

noncomputable section

open scoped BigOperators

namespace Cert.Attn

open Idealize.ShloMosaic Idealize.ShloMosaic.ValueIdx

/-- The f32 word `0x3F800000` is the number one: sign 0, exponent field 127 (the bias), zero fraction. -/
theorem rread_ofBits_one_f32 : Ideal.ofBits .f32 0x3F800000#32 = 1 := by
  simp [Ideal.ofBits, Ideal.ieee, -EReal.coe_mul]; norm_num

/-- A select on "`S` equals 0" between `1` and `S` is the guarded normaliser. -/
theorem rread_select_oeq_zero (S : EReal) :
    Scalar.select (Ideal.cmp .oeq S 0) (1 : EReal) S = if S = 0 then 1 else S := by
  by_cases h : S = 0
  · have hc : Ideal.cmp .oeq S 0 = 1#1 := by simp [Ideal.cmp, h]
    rw [hc, select_one, if_pos h]
  · have hc : Ideal.cmp .oeq S 0 = 0#1 := by simp [Ideal.cmp, h]
    rw [hc, select_zero, if_neg h]

open Cert.ReferenceIdeal in
/-- The normaliser of row `b`: the sum over the positions of the gated exponentials (the sum starts from `0`). -/
theorem rread_norm_stage_apply (z : FVec Ideal S1024x1024 .f32) (c e : FVec Ideal S1024x128 .f32) (b : Fin 1024) :
    Cert.ReferenceIdeal.ReadP.val_main_v20 (F := Ideal) z c e (ix1 b)
      = ∑ f : Fin 1024, refExp refScale (fun f' => z (ix2 b f')) (fun k => c (ix2 b k)) (fun f' k => e (ix2 f' k)) f := by
  rw [ReadP.val_main_v20_apply, ReadP.val_main_cst_7_apply, Ideal.ofBits_def, Ideal.ofBits_zero_f32, zero_add]
  refine Finset.sum_congr rfl fun f _ => ?_
  have hi : ReadP.idx_main_v20 (ix1 b) f = ix2 b f :=
    funext fun a => Fin.ext (by match a with | ⟨0, _⟩ => rfl | ⟨1, _⟩ => rfl)
  rw [hi, exp_stage_apply]

open Cert.ReferenceIdeal in
/-- The guarded normaliser of row `b`: `1` where the sum vanishes, the sum elsewhere. -/
theorem rread_safe_norm_stage_apply (z : FVec Ideal S1024x1024 .f32) (c e : FVec Ideal S1024x128 .f32) (b : Fin 1024) :
    Cert.ReferenceIdeal.ReadP.val_main_v23 (F := Ideal) z c e (ix1 b)
      = if (∑ f' : Fin 1024, refExp refScale (fun f' => z (ix2 b f')) (fun k => c (ix2 b k)) (fun f' k => e (ix2 f' k)) f') = 0
        then 1
        else ∑ f' : Fin 1024, refExp refScale (fun f' => z (ix2 b f')) (fun k => c (ix2 b k)) (fun f' k => e (ix2 f' k)) f' := by
  rw [ReadP.val_main_v23_apply, ReadP.val_main_v22_apply, rread_norm_stage_apply, ReadP.val_main_v21_apply,
    ReadP.val_main_cst_8_apply, ReadP.val_main_call3_v1_apply, ReadP.val_main_call3_v0_apply,
    ReadP.val_main_cst_9_apply, Ideal.ofBits_def, Ideal.ofBits_def, Ideal.ofBits_zero_f32, rread_ofBits_one_f32,
    Ideal.cmpf_def]
  exact rread_select_oeq_zero _

open Cert.ReferenceIdeal in
/-- The softmax weight of position `f` in row `b`: its gated exponential over the row's guarded normaliser
    (the normaliser is broadcast along the row). -/
theorem rread_weight_stage_apply (z : FVec Ideal S1024x1024 .f32) (c e : FVec Ideal S1024x128 .f32) (b f : Fin 1024) :
    Cert.ReferenceIdeal.ReadP.val_main_v26 (F := Ideal) z c e (ix2 b f)
      = Ideal.div (refExp refScale (fun f' => z (ix2 b f')) (fun k => c (ix2 b k)) (fun f' k => e (ix2 f' k)) f)
          (if (∑ f' : Fin 1024, refExp refScale (fun f' => z (ix2 b f')) (fun k => c (ix2 b k)) (fun f' k => e (ix2 f' k)) f') = 0
            then 1
            else ∑ f' : Fin 1024, refExp refScale (fun f' => z (ix2 b f')) (fun k => c (ix2 b k)) (fun f' k => e (ix2 f' k)) f') := by
  have hi : ReadP.idx_main_v24 (ReadP.idx_main_v25 (ix2 b f)) = ix1 b :=
    funext fun a => Fin.ext (by match a with | ⟨0, _⟩ => rfl)
  rw [ReadP.val_main_v26_apply, Ideal.hostDivf_def, exp_stage_apply, ReadP.val_main_v25_apply,
    ReadP.val_main_v24_apply, hi, rread_safe_norm_stage_apply]

open Cert.ReferenceIdeal in
/-- The contraction of row `b`'s weights with column `j` of the table: entry `(b, f, j)` of the product array is
    the weight `(b, f)` (broadcast along `j`) times the table entry `(f, j)` (broadcast along `b`), summed over
    `f` from `0`. -/
theorem rread_contraction_stage_apply (z : FVec Ideal S1024x1024 .f32) (c e : FVec Ideal S1024x128 .f32) (b : Fin 1024)
    (j : Fin 128) :
    Cert.ReferenceIdeal.ReadP.val_main_v32 (F := Ideal) z c e (ix2 b j)
      = ∑ f : Fin 1024,
          Ideal.div (refExp refScale (fun f' => z (ix2 b f')) (fun k => c (ix2 b k)) (fun f' k => e (ix2 f' k)) f)
            (if (∑ f' : Fin 1024, refExp refScale (fun f' => z (ix2 b f')) (fun k => c (ix2 b k)) (fun f' k => e (ix2 f' k)) f') = 0
              then 1
              else ∑ f' : Fin 1024, refExp refScale (fun f' => z (ix2 b f')) (fun k => c (ix2 b k)) (fun f' k => e (ix2 f' k)) f')
            * e (ix2 f j) := by
  rw [ReadP.val_main_v32_apply, ReadP.val_main_cst_10_apply, Ideal.ofBits_def, Ideal.ofBits_zero_f32, zero_add]
  refine Finset.sum_congr rfl fun f _ => ?_
  have h32 : ReadP.idx_main_v32 (ix2 b j) f = ix3 b f j :=
    funext fun a => Fin.ext (by match a with | ⟨0, _⟩ => rfl | ⟨1, _⟩ => rfl | ⟨2, _⟩ => rfl)
  have h29 : ReadP.idx_main_v27 (ReadP.idx_main_v29 (ix3 b f j)) = ix2 b f :=
    funext fun a => Fin.ext (by match a with | ⟨0, _⟩ => rfl | ⟨1, _⟩ => rfl)
  have h30 : ReadP.idx_main_v28 (ReadP.idx_main_v30 (ix3 b f j)) = ix2 f j :=
    funext fun a => Fin.ext (by match a with | ⟨0, _⟩ => rfl | ⟨1, _⟩ => rfl)
  rw [h32, ReadP.val_main_v31_apply, Ideal.mulf_def, ReadP.val_main_v29_apply, ReadP.val_main_v27_apply, h29,
    ReadP.val_main_v30_apply, ReadP.val_main_v28_apply, h30, rread_weight_stage_apply]

open Cert.ReferenceIdeal in
/-- Entry `(b, j)` of the reference's last stage, as a function of the three argument arrays. -/
theorem reference_apply (z : FVec Ideal S1024x1024 .f32) (c e : FVec Ideal S1024x128 .f32) (b : Fin 1024) (j : Fin 128) :
    Cert.ReferenceIdeal.ReadP.val_main_v39 (F := Ideal) z c e (ix2 b j)
      = referenceRow refScale (fun f => z (ix2 b f)) (fun k => c (ix2 b k)) (fun f k => e (ix2 f k)) j := by
  rw [ReadP.val_main_v39_apply, Ideal.hostDivf_def, rread_contraction_stage_apply, count_stage_apply]
  rfl

end Cert.Attn

end
-- ==== Proof.lean ====
/-
  A fused masked-attention kernel against its staged jnp reference, over the extended reals.

  For each of 1024 rows: the scores of the row's context vector against the 1024 rows of an embedding table
  (inner products over 128 features, scaled by `1/√128`), a softmax over the positions whose logit is positive, the
  softmax-weighted sum of the table's rows, divided by the number of such positions (or by 1 when there is none).

  The kernel multiplies the scores by the folded reciprocal, which the certificate's table names `"inv_scale"` and
  reads as the exact reciprocal `2^20 / 11863283` of the reference's divisor `f32(√128) = 11863283 / 2^20`
  (`preserves` is that one ledger entry); it shifts by the maximum over ALL positions, multiplies the exponentials by
  the 0/1 activity bit, and divides the contraction once by (normaliser · count). The reference divides the scores,
  shifts by the maximum over the ACTIVE positions (0 for an empty row), normalises the weights, contracts, then
  divides by the count. With finite contexts and table both are the same real number: softmax weights do not depend
  on the shift, an empty row gives 0 on both sides, and dividing once by a product is dividing twice.

  The kernel's output array is `Cert.Attn.attention` of the argument arrays (KernelArray, over the payload read at
  an entry: KernelPayload); the reference's last stage read at an entry is the staged arrangement (ReferenceRead);
  the two arrangements agree on real data (Rows, from KernelLift, ReferenceLift and Shift); the precondition makes
  the data real (Finite).
-/
import proofs.«178666_g69982197121800_cont_sun_m_1311_10_alg».proof.Defs
import proofs.«178666_g69982197121800_cont_sun_m_1311_10_alg».proof.Proof.Gen.Kernel
import proofs.«178666_g69982197121800_cont_sun_m_1311_10_alg».proof.Proof.Gen.Kernel.Skeleton
import proofs.«178666_g69982197121800_cont_sun_m_1311_10_alg».proof.Proof.Gen.Kernel.Launch
import proofs.«178666_g69982197121800_cont_sun_m_1311_10_alg».proof.Proof.Gen.Kernel.Points
import proofs.«178666_g69982197121800_cont_sun_m_1311_10_alg».proof.Proof.Gen.Kernel.Frame
import proofs.«178666_g69982197121800_cont_sun_m_1311_10_alg».proof.Proof.Gen.KernelIdeal
import proofs.«178666_g69982197121800_cont_sun_m_1311_10_alg».proof.Proof.Gen.KernelIdeal.Skeleton
import proofs.«178666_g69982197121800_cont_sun_m_1311_10_alg».proof.Proof.Gen.KernelIdeal.Launch
import proofs.«178666_g69982197121800_cont_sun_m_1311_10_alg».proof.Proof.Gen.KernelIdeal.Points
import proofs.«178666_g69982197121800_cont_sun_m_1311_10_alg».proof.Proof.Gen.KernelIdeal.Frame
import proofs.«178666_g69982197121800_cont_sun_m_1311_10_alg».proof.Proof.Gen.ReferenceIdeal
import proofs.«178666_g69982197121800_cont_sun_m_1311_10_alg».proof.Proof.Gen.Pre_finite_inputs
import proofs.«178666_g69982197121800_cont_sun_m_1311_10_alg».proof.Proof.Gen.KernelIdeal.Value
import proofs.«178666_g69982197121800_cont_sun_m_1311_10_alg».proof.Proof.RefRun
import proofs.«178666_g69982197121800_cont_sun_m_1311_10_alg».proof.Proof.RefRead
import proofs.«178666_g69982197121800_cont_sun_m_1311_10_alg».proof.Proof.Spec
import proofs.«178666_g69982197121800_cont_sun_m_1311_10_alg».proof.Proof.Finite
import proofs.«178666_g69982197121800_cont_sun_m_1311_10_alg».proof.Proof.Rows
import proofs.«178666_g69982197121800_cont_sun_m_1311_10_alg».proof.Proof.KernelArray
import proofs.«178666_g69982197121800_cont_sun_m_1311_10_alg».proof.Proof.ReferenceRead
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The one ledger entry: the table gives `"inv_scale"` the value `2^20 / 11863283`, and the named constant is that
    value over the extended reals. -/
theorem preserves : Cert.preserves_Kernel_KernelIdeal :=
  IdealRules.named_const.statement Cert.KernelIdeal.κ "inv_scale" .f32 0x3DB504F3#32
    ((1048576 / 11863283 : ℝ) : EReal) rfl

/-- Both programs end with the attention output: the kernel's array is `attention` of the arguments, and the
    reference's last stage, entry by entry, is the staged arrangement of the same row, equal to it on finite data. -/
theorem algebraic : Cert.algebraic_KernelIdeal_ReferenceIdeal := by
  intro m ρ m' ρ' hpre hagree
  refine ⟨fun c => Cert.Attn.attention (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.AttnValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v39_eq, (hagree c).1, (hagree c).2.1, (hagree c).2.2]
  obtain ⟨hc, he⟩ := Cert.Attn.real_of_pre _ _ _ (hpre c)
  funext i
  obtain ⟨b, j, rfl⟩ : ∃ (b : Fin 1024) (j : Fin 128), i = ix2 b j := ⟨i 0, i 1, eq_ix2 i⟩
  rw [Cert.Attn.reference_apply]
  exact (Cert.Attn.attention_eq_referenceRow _ _ _ hc he b j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
